-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128x128 : Shape := ⟨2, ![128, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S128x256 .f32) (main_arg3 : FVec F S128x128 .f32) (main_arg4 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128x128 : Shape := ⟨2, ![128, 128]⟩
abbrev S128 : Shape := ⟨1, ![128]⟩
abbrev S256x128 : Shape := ⟨2, ![256, 128]⟩
abbrev S100000x128 : Shape := ⟨2, ![100000, 128]⟩
abbrev S5000x256 : Shape := ⟨2, ![5000, 256]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 66
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128x128, .f32⟩
  | .hbm, ⟨7, _⟩ => ⟨S256x128, .f32⟩
  | .hbm, ⟨8, _⟩ => ⟨S100000x128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x256_S256x128_1_0 : S128x256.Transposes [1, 0] S256x128
  transposes_S128x128_S128x128_1_0 : S128x128.Transposes [1, 0] S128x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S256x128_S128x128_S256x128_1_0_0_1_n_n_wf : DotDims.WF S256x128 S128x128 S256x128 [1] [0] [0] [1] [] []
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128x128 : Shape := ⟨2, ![128, 128]⟩
abbrev S128 : Shape := ⟨1, ![128]⟩
abbrev S256x128 : Shape := ⟨2, ![256, 128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S100000x128, .f32⟩
  | .hbm, ⟨7, _⟩ => ⟨S128x128, .f32⟩
  | .hbm, ⟨8, _⟩ => ⟨S100000x128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000, .f32⟩
  | .hbm, ⟨71, _⟩ => ⟨S100000x1, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  transposes_S128x256_S256x128_1_0 : S128x256.Transposes [1, 0] S256x128
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The three functions the two programs compute, index by index on the extended reals, and the one law that joins
  them.

  * The projection. The kernel multiplies each row of `x` by ONE matrix, the product `Wpᵀ · Wgᵀ` formed beforehand
    (`rowsTimes x (weightProduct wp wg)`); the reference multiplies by `Wpᵀ` and then by `Wgᵀ` (`twoProducts`).
    Entry (n, j) of the first is `∑ k, x n k · (∑ l, wp l k · wg j l)`, of the second
    `∑ l, (∑ k, x n k · wp l k) · wg j l`. They agree when every entry is a real number: distributing a factor over
    a sum, which fails at the infinities, is what moves `x n k` inside and `wg j l` outside (`projection_assoc`).
  * The closing normalisation, the same on both sides: add the bias to each row, divide the row by the larger of
    its Euclidean norm and a fixed positive word (`normalizeRows`).
-/
import Idealize.ShloMosaic.PureOps.Ideal
import Idealize.ShloMosaic.Lib.ValueIdx

noncomputable section

open scoped BigOperators

namespace Cert.Spec

open Idealize.ShloMosaic Idealize.ShloMosaic.ValueIdx

/-- The shapes, literally: nodes × input features, the two weights as stored (out × in), the product's (in × out),
    nodes × output features, the bias. -/
abbrev SX : Shape := ⟨2, ![100000, 256]⟩
abbrev SWp : Shape := ⟨2, ![128, 256]⟩
abbrev SWg : Shape := ⟨2, ![128, 128]⟩
abbrev SW : Shape := ⟨2, ![256, 128]⟩
abbrev SH : Shape := ⟨2, ![100000, 128]⟩
abbrev SB : Shape := ⟨1, ![128]⟩

/-- The row and the column of an index of a nodes × features array, as numbers below the literal extents. -/
abbrev node (i : SH.Idx) : Fin 100000 := ⟨(i 0).val, (i 0).isLt⟩
abbrev feat (i : SH.Idx) : Fin 128 := ⟨(i 1).val, (i 1).isLt⟩

/-- `Wpᵀ · Wgᵀ` at (k, j): the sum over the middle feature `l` of `wp l k · wg j l`. -/
def weightProduct (wp : SWp.Idx → EReal) (wg : SWg.Idx → EReal) : SW.Idx → EReal :=
  fun i => ∑ l : Fin 128, wp (ix2 l (⟨(i 0).val, (i 0).isLt⟩ : Fin 256)) * wg (ix2 (⟨(i 1).val, (i 1).isLt⟩ : Fin 128) l)

/-- `x · w` at (n, j): the sum over the input feature `k` of `x n k · w k j`. -/
def rowsTimes (x : SX.Idx → EReal) (w : SW.Idx → EReal) : SH.Idx → EReal :=
  fun i => ∑ k : Fin 256, x (ix2 (node i) k) * w (ix2 k (feat i))

/-- `(x · Wpᵀ) · Wgᵀ` at (n, j). -/
def twoProducts (x : SX.Idx → EReal) (wp : SWp.Idx → EReal) (wg : SWg.Idx → EReal) : SH.Idx → EReal :=
  fun i => ∑ l : Fin 128, (∑ k : Fin 256, x (ix2 (node i) k) * wp (ix2 l k)) * wg (ix2 (feat i) l)

/-- Every entry of an array is a real number. -/
def AllReal {S : Shape} (a : S.Idx → EReal) : Prop := ∀ i, ∃ r : ℝ, a i = (r : EReal)

/-- Bias, then each row divided by `max (‖row‖₂) ε`, ε the word `0x2B8CBCCC` both programs carry. -/
def normalizeRows (agg : SH.Idx → EReal) (bg : SB.Idx → EReal) : SH.Idx → EReal :=
  fun i => Ideal.div (agg i + bg (ix1 (feat i)))
    (max (Ideal.sqrt (∑ k : Fin 128, (agg (ix2 (node i) k) + bg (ix1 k)) * (agg (ix2 (node i) k) + bg (ix1 k))))
      (Ideal.ofBits .f32 0x2B8CBCCC#32))

end Cert.Spec

end
-- ==== Proof.KProj.lean ====
/-
  The projection call's output array, read whole. Each of the 20 grid points multiplies ITS 5000 rows of `x` by the one
  256 × 128 matrix the call is given and writes the product into its 5000 rows of the output; the blocks tile the
  array, so after the call the array is `x · w` (`Cert.Spec.rowsTimes`), index by index.
-/
import proofs.«117587_j45122926412247_1_alg».proof.Proof.Gen.KernelIdeal.Frame
import proofs.«117587_j45122926412247_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Proj

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The kernel's product at an index of one block -/

/-- The left operand's index at output index `i` and contraction index `q`: row `i 0`, -/
private theorem klhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- column the contracted coordinate; -/
private theorem klhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- the right operand's: row the contracted coordinate, -/
private theorem krhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- column `i 1`. -/
private theorem krhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- What the body stores, at row `p` and column `q` of its block: the sum over the 256 input features of the block's
    row `p` of `x` times column `q` of the matrix (the narrowing to bf16 is the identity on the extended reals, the
    cast is to the same shape, the accumulator is zero). -/
private theorem pay_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  refine (Ideal.matmul_constant_zero_apply dot_S5000x256_S256x128_S5000x128_1_0_0_1_n_n none _ _ (ix2 p q)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact klhs_0 _ _
    | ⟨1, _⟩ => exact (klhs_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (krhs_0 _ _).trans hk
    | ⟨1, _⟩ => exact krhs_1 _ _)
  rw [el, er, shapeCast_self]
  rfl

/-- So when the block's row `p` is row `node i` of an array `A` and the matrix's column `q` is column `feat i` of
    `W`, the body's entry (p, q) is entry `i` of `A · W`. -/
private theorem point_eq (A : Cert.Spec.SX.Idx → EReal) (W : Cert.Spec.SW.Idx → EReal)
    (x0 : Vec Ideal S5000x256 .f32) (x1 : Vec Ideal S256x128 .f32) (p : Fin 5000) (q : Fin 128) (i : Cert.Spec.SH.Idx)
    (h0 : ∀ k : Fin 256, x0 (ix2 p k) = A (ix2 (Cert.Spec.node i) k))
    (h1 : ∀ k : Fin 256, x1 (ix2 k q) = W (ix2 k (Cert.Spec.feat i))) :
    k0_pay1 (F := Ideal) x0 x1 (ix2 p q) = Cert.Spec.rowsTimes A W i := by
  rw [pay_apply]
  unfold Cert.Spec.rowsTimes
  exact Finset.sum_congr rfl fun k _ => by rw [h0 k, h1 k]

/-! ## From the blocks to the array -/

/-- Both zero offsets, however spelt. -/
private theorem hz : (![0, 0] : Fin 2 → Nat) = fun _ => 0 := funext fun a => by fin_cases a <;> rfl

/-- The printed index maps, decided over the 20 points: point `t` reads rows block `t` of `x`, the whole matrix, and
    writes rows block `t` of the output. -/
private theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of `x · w` of the two arrays as the call finds them. -/
private theorem flushed_eq (c : Dev nD) (t : Fin cfg0.N) :
    (dat0 (F := Ideal) V c).flushed 2 t
      = ((cfg0.win 2).blk t).view.read (Elt Ideal) (Cert.Spec.rowsTimes (V c main_arg0) (V c main_v2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  have hp : (j 0).val < 5000 := (j 0).isLt
  have hq : (j 1).val < 128 := (j 1).isLt
  have hj : (cfg0.win 2).xinj (grid0.coords t) j = ix2 (⟨(j 0).val, hp⟩ : Fin 5000) (⟨(j 1).val, hq⟩ : Fin 128) :=
    funext fun a => by match a with | ⟨0, _⟩ => rfl | ⟨1, _⟩ => rfl
  show k0_pay1 (F := Ideal) (iblk0 V c 0 t) (iblk0 V c 1 t) ((cfg0.win 2).xinj (grid0.coords t) j)
    = Cert.Spec.rowsTimes (V c main_arg0) (V c main_v2) (((cfg0.win 2).blk t).view.emb j)
  refine (congrArg (k0_pay1 (F := Ideal) (iblk0 V c 0 t) (iblk0 V c 1 t)) hj).trans ?_
  refine point_eq (V c main_arg0) (V c main_v2) (iblk0 V c 0 t) (iblk0 V c 1 t) ⟨(j 0).val, hp⟩ ⟨(j 1).val, hq⟩
    (((cfg0.win 2).blk t).view.emb j) (fun k => ?_) (fun k => ?_)
  · show V c main_arg0 (((cfg0.win 0).blk t).view.emb (ix2 (⟨(j 0).val, hp⟩ : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_v2 (((cfg0.win 1).blk t).view.emb (ix2 k (⟨(j 1).val, hq⟩ : Fin 128))) = _
    refine congrArg (V c main_v2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
private theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v3).slice (win0_2.rect t)).set ↔ _
  rw [View.set_slice_whole, Rect.mem_set_unit]
  exact Iff.rfl

/-- Every index of the output array is in some point's block: row `r` is in the block of point `r / 5000`. -/
private theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the projection call its output array is `x · w` of the two arrays the call found. -/
theorem proj_final (c : Dev nD) :
    (dat0 (F := Ideal) V c).arrAt 2 cfg0.N = Cert.Spec.rowsTimes (V c main_arg0) (V c main_v2) :=
  (dat0 (F := Ideal) V c).arrAt_eq_of_cover 2 (Cert.Spec.rowsTimes (V c main_arg0) (V c main_v2))
    (fun t _ => flushed_eq V c t) cover

/-! ## The host's product of the two transposed weights, index by index -/

/-- The left operand's index at output index `i` and contraction index `q`: row `i 0`, -/
private theorem wlhs_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
/-- column the contracted coordinate; -/
private theorem wlhs_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
/-- the right operand's: row the contracted coordinate, -/
private theorem wrhs_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
/-- column `i 1`. -/
private theorem wrhs_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The host's `dot_general` of a 256 × 128 by a 128 × 128 array at an index: the sum over the shared axis. -/
private theorem hostDot_apply (y0 : Vec Ideal S256x128 .f32) (y1 : Vec Ideal S128x128 .f32) (i : S256x128.Idx) :
    Host.dotGeneral (F := Ideal) (φ₁ := .f32) (φ₂ := .f32) dot_S256x128_S128x128_S256x128_1_0_0_1_n_n none y0 y1 i
      = ∑ l : Fin 128, y0 (ix2 (⟨(i 0).val, (i 0).isLt⟩ : Fin 256) l) * y1 (ix2 l (⟨(i 1).val, (i 1).isLt⟩ : Fin 128)) := by
  simp only [Host.dotGeneral]
  rw [Ideal.dotGeneral_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx i ((ValueIdx.contrEquiv1 dot_S256x128_S128x128_S256x128_1_0_0_1_n_n 128 rfl rfl).symm k) = ix2 (⟨(i 0).val, (i 0).isLt⟩ : Fin 256) k := funext fun a => Fin.ext (by
    match a with
    | ⟨0, _⟩ => exact wlhs_0 _ _
    | ⟨1, _⟩ => exact (wlhs_1 _ _).trans hk)
  have er : dot_S256x128_S128x128_S256x128_1_0_0_1_n_n.rhsIdx i ((ValueIdx.contrEquiv1 dot_S256x128_S128x128_S256x128_1_0_0_1_n_n 128 rfl rfl).symm k) = ix2 k (⟨(i 1).val, (i 1).isLt⟩ : Fin 128) := funext fun a => Fin.ext (by
    match a with
    | ⟨0, _⟩ => exact (wrhs_0 _ _).trans hk
    | ⟨1, _⟩ => exact wrhs_1 _ _)
  rw [el, er]

/-- The host's product of the two transposed weights is `Wpᵀ · Wgᵀ`, index by index. -/
theorem weightProduct_eq (wp : Vec Ideal S128x256 .f32) (wg : Vec Ideal S128x128 .f32) :
    Host.dotGeneral (F := Ideal) (φ₁ := .f32) (φ₂ := .f32) dot_S256x128_S128x128_S256x128_1_0_0_1_n_n none
        (transpose S256x128 [1, 0] wp transposes_S128x256_S256x128_1_0)
        (transpose S128x128 [1, 0] wg transposes_S128x128_S128x128_1_0)
      = Cert.Spec.weightProduct wp wg := by
  funext i
  rw [hostDot_apply]
  unfold Cert.Spec.weightProduct
  refine Finset.sum_congr rfl fun l _ => ?_
  exact congrArg₂ (· * ·)
    (transpose_apply [1, 0] wp transposes_S128x256_S256x128_1_0 (ix2 (⟨(i 0).val, (i 0).isLt⟩ : Fin 256) l)
      (ix2 l (⟨(i 0).val, (i 0).isLt⟩ : Fin 256)) (fun b => match b with
        | ⟨0, _⟩ => rfl
        | ⟨1, _⟩ => rfl))
    (transpose_apply [1, 0] wg transposes_S128x128_S128x128_1_0 (ix2 l (⟨(i 1).val, (i 1).isLt⟩ : Fin 128))
      (ix2 (⟨(i 1).val, (i 1).isLt⟩ : Fin 128) l) (fun b => match b with
        | ⟨0, _⟩ => rfl
        | ⟨1, _⟩ => rfl))

end Cert.KernelIdeal.Proj

end
-- ==== Proof.KNorm.lean ====
/-
  The closing call's output array, read whole. Each of the 20 grid points takes ITS 5000 rows of the aggregated
  array, adds the bias to every row, and divides the row by the larger of its Euclidean norm and the fixed positive
  word; the blocks tile the array, so after the call the array is `Cert.Spec.normalizeRows` of the two arrays the call
  found, index by index.

  First the body's value at one index of a block: the two column layouts the row norm passes through (a vector of
  row values kept as a one-column matrix, and that column spread over the lanes), the lane sum of squares as a sum
  over the 128 columns, and then the whole quotient. Then the blocks: block `t` of the aggregated array is its rows
  `5000 t … 5000 t + 4999`, the bias block is the whole bias, and what point `t` writes back is block `t` of the
  normalised rows. Every row lies in the block of the point `row / 5000`, so the blocks cover the array.
-/
import proofs.«117587_j45122926412247_1_alg».proof.Proof.Gen.KernelIdeal.Frame
import proofs.«117587_j45122926412247_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Norm

open Cert.KernelIdeal Cert.KernelIdeal.Gen Idealize.ShloMosaic Idealize.ShloMosaic.TcCoe Idealize.ShloMosaic.ValueIdx
open Idealize.SL.Sem
open Idealize.ShloMosaic.Pipeline (Dat)

/-! ## Two column layouts -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's value at one index of a block -/

/-- A square root at an index is the square root of the element. -/
private theorem sqrt_apply {s : Shape} {φ : FTy} (a : FVec Ideal s φ) (i : s.Idx) : sqrt a i = Ideal.sqrt (a i) := rfl

/-- The lane sum of a block of squares, at row `p`: the sum over the 128 columns of the squares of that row. -/
private theorem rowSumSq_apply (v : FVec Ideal S5000x128 .f32) (h : S5000x128.Reduces [1] S5000) (hφ : FKind.Formats .f32)
    (hacc : (0x00000000#32 : BitVec 32) = 0x00000000#32) (p : Fin 5000) :
    multiReduction (F := Ideal) .add [1] S5000 (mulf v v) 0x00000000#32 h hφ hacc (ix1 p)
      = ∑ k : Fin 128, v (ix2 p k) * v (ix2 p k) := by
  refine (Ideal.multiReduction_add_single (mulf v v) 0x00000000#32 h hφ hacc (ix1 p)).trans ?_
  show ∑ k : Fin 128, mulf v v (h.lift (ix1 p) k) = _
  refine Finset.sum_congr rfl fun k _ => ?_
  have e : h.lift (ix1 p) k = ix2 p k :=
    funext fun c => Fin.ext (by match c with | ⟨0, _⟩ => rfl | ⟨1, _⟩ => rfl)
  rw [e, mulf_apply]

/-- THE BODY AT `(p, q)`: the biased entry over the larger of its row's Euclidean norm and the fixed word. -/
private theorem pay_apply (x0 : Vec Ideal S5000x128 .f32) (x1 : Vec Ideal S128 .f32) (p : Fin 5000) (q : Fin 128) :
    k1_pay1 (F := Ideal) x0 x1 (ix2 p q)
      = Ideal.div (x0 (ix2 p q) + x1 (ix1 q))
          (max (Ideal.sqrt (∑ k : Fin 128, (x0 (ix2 p k) + x1 (ix1 k)) * (x0 (ix2 p k) + x1 (ix1 k))))
            (Ideal.ofBits .f32 0x2B8CBCCC#32)) := by
  have hb : ∀ (r : Fin 5000) (k : Fin 128),
      (addf (shapeCast S5000x128 x0 shapeCasts_S5000x128_S5000x128 : FVec Ideal S5000x128 .f32)
        (broadcastTo S5000x128 (shapeCast S1x128 x1 shapeCasts_S128_S1x128) broadcasts_S1x128_S5000x128)) (ix2 r k)
        = x0 (ix2 r k) + x1 (ix1 k) := fun r k => by
    rw [addf_apply, shapeCast_self, broadcastTo_1b_ab_apply, shapeCast_a_1a_apply]
  unfold k1_pay1
  dsimp only
  rw [divf_apply, broadcastTo_a1_ab_apply, maximumf_apply, sqrt_apply, broadcast_apply]
  refine congrArg₂ Ideal.div (hb p q) (congrArg₂ max (congrArg Ideal.sqrt ?_) rfl)
  refine (shapeCast_a_a1_apply _ _ p 0).trans ?_
  refine (rowSumSq_apply _ _ _ _ p).trans ?_
  exact Finset.sum_congr rfl fun k _ => by rw [hb]

/-- The body's value at `(p, q)` of a block whose rows are rows of `agg` and whose bias is `bg` is the normalised
    rows of `agg` and `bg` at that row and column `q`. -/
private theorem pay_eq_spec (agg : Cert.Spec.SH.Idx → EReal) (bg : Cert.Spec.SB.Idx → EReal)
    (x0 : Vec Ideal S5000x128 .f32) (x1 : Vec Ideal S128 .f32) (p : Fin 5000) (q : Fin 128) (r : Fin 100000)
    (h0 : ∀ k : Fin 128, x0 (ix2 p k) = agg (ix2 r k)) (h1 : ∀ k : Fin 128, x1 (ix1 k) = bg (ix1 k)) :
    k1_pay1 (F := Ideal) x0 x1 (ix2 p q) = Cert.Spec.normalizeRows agg bg (ix2 r q) := by
  rw [pay_apply]
  simp only [h0, h1]
  rfl

/-! ## The blocks -/

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a; rfl

/-- The printed index maps, decided over the grid: point `t` takes block `(t, 0)` of the aggregated array and of the
    output, and the bias whole. -/
private theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Block `t` of the aggregated array is its rows `5000 t … 5000 t + 4999`. -/
private theorem agg_blk_apply (c : Dev nD) (t : Fin cfg1.N) (p : Fin 5000) (k : Fin 128) (r : Fin 100000)
    (hr : r.val = t.val * 5000 + p.val) :
    (iblk1 V c 0 t : Vec Ideal S5000x128 .f32) (ix2 p k) = (V c main_v46 : Cert.Spec.SH.Idx → EReal) (ix2 r k) := by
  obtain ⟨e0, e1, -⟩ := idx_facts t
  unfold iblk1
  rw [View.read_apply]
  show V c main_v46 _ = V c main_v46 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The bias block at every point is the whole bias. -/
private theorem bias_blk_apply (c : Dev nD) (t : Fin cfg1.N) (k : Fin 128) :
    (iblk1 V c 1 t : Vec Ideal S128 .f32) (ix1 k) = (V c main_arg4 : Cert.Spec.SB.Idx → EReal) (ix1 k) := by
  obtain ⟨-, -, e2, -⟩ := idx_facts t
  unfold iblk1
  rw [View.read_apply]
  show V c main_arg4 _ = V c main_arg4 _
  congr 1
  funext a
  apply Fin.ext
  match a with
  | ⟨0, _⟩ => show win1_1.index t (0 : Fin 1) * 128 + 1 * k.val = k.val; rw [e2]; omega

/-- WHAT POINT `t` WRITES BACK is block `t` of the normalised rows of the two arrays the call found. -/
private theorem flushed_eq (c : Dev nD) (t : Fin cfg1.N) :
    (dat1 (F := Ideal) V c).flushed 2 t
      = ((cfg1.win 2).blk t).view.read (Elt Ideal) (Cert.Spec.normalizeRows (V c main_v46) (V c main_arg4)) := by
  show (cfg1.win 2).cut (grid1.coords t) ((dat1 V c).after 2 t) = _
  rw [after1_2]
  unfold out1_2
  rw [View.canon_unit_zero zero2]
  simp only [View.ld_unit_zero (S := S5000x128) zero2, View.ld_unit_zero (S := S128) zero1]
  obtain ⟨-, -, -, e3, e4⟩ := idx_facts t
  have ht : t.val < 20 := Nat.lt_of_lt_of_eq t.isLt N_1
  funext j
  obtain ⟨p, q, rfl⟩ : ∃ (p : Fin 5000) (q : Fin 128), j = ix2 p q := ⟨j 0, j 1, eq_ix2 j⟩
  have hp : p.val < 5000 := p.isLt
  show k1_pay1 (F := Ideal) (iblk1 V c 0 t) (iblk1 V c 1 t) (ix2 p q)
    = Cert.Spec.normalizeRows (V c main_v46) (V c main_arg4) (((cfg1.win 2).blk t).view.emb (ix2 p q))
  have hemb : ((cfg1.win 2).blk t).view.emb (ix2 p q)
      = (ix2 (⟨t.val * 5000 + p.val, by omega⟩ : Fin 100000) q : Cert.Spec.SH.Idx) := by
    funext a
    apply Fin.ext
    match a with
    | ⟨0, _⟩ => show win1_2.index t (0 : Fin 2) * 5000 + 1 * p.val = t.val * 5000 + p.val; rw [e3]; omega
    | ⟨1, _⟩ => show win1_2.index t (1 : Fin 2) * 128 + 1 * q.val = q.val; rw [e4]; omega
  rw [hemb]
  exact pay_eq_spec _ _ _ _ p q _ (fun k => agg_blk_apply V c t p k _ rfl) (fun k => bias_blk_apply V c t k)

/-- An index of the array is in point `t`'s block iff each coordinate is in the block's range on its axis. -/
private theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Every index of the array is in the block of the point `row / 5000`, which writes back. -/
private theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, e3, e4⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e3]
    show (i 0).val / 5000 * 5000 ≤ (i 0).val ∧ (i 0).val < (i 0).val / 5000 * 5000 + 5000
    omega
  | ⟨1, _⟩ =>
    show win1_2.index ⟨(i 0).val / 5000, hlt⟩ (1 : Fin 2) * 128 ≤ (i 1).val
      ∧ (i 1).val < win1_2.index ⟨(i 0).val / 5000, hlt⟩ (1 : Fin 2) * 128 + 128
    rw [e4]
    omega

/-- After the closing call its output array is the normalised rows of the two arrays the call found. -/
theorem norm_final (c : Dev nD) :
    (dat1 (F := Ideal) V c).arrAt 2 cfg1.N = Cert.Spec.normalizeRows (V c main_v46) (V c main_arg4) :=
  (dat1 (F := Ideal) V c).arrAt_eq_of_cover 2 (Cert.Spec.normalizeRows (V c main_v46) (V c main_arg4))
    (fun t _ => flushed_eq V c t) cover

end Cert.KernelIdeal.Norm

end
-- ==== Proof.KHost.lean ====
/-
  The host side of the kernel's program, read as values. Before the projection call the host forms `Wpᵀ · Wgᵀ`; between
  the two calls it runs the message passing over the projected array: the edge list with a self-loop per node appended
  (`rowK` the sources, `colK` the targets), each node's degree as a scatter-add of ones at the targets (`degK`), the
  symmetric normalisation `deg^(-1/2)` where the degree is positive and 0 elsewhere (`dinvK`), the projected rows gathered at
  the sources, scaled by the two ends' normalisations, and scatter-added at the targets (`passK`). The stretch is carried
  as the one function `glueK` of the projected array and the edge list; nothing here opens a gather or a scatter.
-/
import proofs.«117587_j45122926412247_1_alg».proof.Proof.Gen.KernelIdeal.Frame
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The sources: row 0 of the edge list, then every node once (its self-loop). -/
def rowK (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets: row 1 of the edge list, then every node once. -/
def colK (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- Each node's degree: ones scatter-added at the targets `col`. -/
def degK (col : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 col) (broadcastInDim S1700000 ![] bcast_S_S1700000 (constant S_ .f32 0x3F800000#32))

/-- The normalisation `deg^(-1/2)` where the comparison `pos` holds and the word `z` elsewhere. -/
def dinvK (pos : (⟨S100000, .i1⟩ : BufTy).Contents (Elt F)) (rs : (⟨S100000, .f32⟩ : BufTy).Contents (Elt F)) (z : (⟨S_, .f32⟩ : BufTy).Contents (Elt F)) : (⟨S100000, .f32⟩ : BufTy).Contents (Elt F) :=
  select pos rs (broadcastInDim S100000 ![] bcast_S_S100000 (id z))

/-- Gather the rows of `h` at the sources, scale each by the normalisations of its two ends, scatter-add at the targets. -/
def passK (h : (⟨S100000x128, .f32⟩ : BufTy).Contents (Elt F)) (row col : (⟨S1700000, .i32⟩ : BufTy).Contents (Elt F)) (dinv : (⟨S100000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (Host.gather gather_S100000x128_S1700000x1_S1700000x128_1_0_n_n_0_1_1128 h (broadcastInDim S1700000x1 ![0] bcast_S1700000_S1700000x1_0 (select (cmpi .slt row (broadcastInDim S1700000 ![] bcast_S_S1700000 (constantI S_ 32 0#32))) (addi row (broadcastInDim S1700000 ![] bcast_S_S1700000 (constantI S_ 32 100000#32))) row))) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 dinv (broadcastInDim S1700000x1 ![0] bcast_S1700000_S1700000x1_0 (select (cmpi .slt row (broadcastInDim S1700000 ![] bcast_S_S1700000 (constantI S_ 32 0#32))) (addi row (broadcastInDim S1700000 ![] bcast_S_S1700000 (constantI S_ 32 100000#32))) row))) (Host.gather gather_S100000_S1700000x1_S1700000_n_0_n_n_0_1_1 dinv (broadcastInDim S1700000x1 ![0] bcast_S1700000_S1700000x1_0 (select (cmpi .slt col (broadcastInDim S1700000 ![] bcast_S_S1700000 (constantI S_ 32 0#32))) (addi col (broadcastInDim S1700000 ![] bcast_S_S1700000 (constantI S_ 32 100000#32))) col)))))))

/-- The whole stretch between the two calls, as one function of the projected array and the edge list. -/
def glueK (h : (⟨S100000x128, .f32⟩ : BufTy).Contents (Elt F)) (ei : (⟨S2x1600000, .i32⟩ : BufTy).Contents (Elt F)) : (⟨S100000x128, .f32⟩ : BufTy).Contents (Elt F) :=
  passK h (rowK ei) (colK ei)
    (dinvK (cmpf (F := F) .ogt (degK (colK ei)) (broadcastInDim S100000 ![] bcast_S_S100000 (constant S_ .f32 0x00000000#32)))
      (Host.rsqrt (degK (colK ei))) (constant S_ .f32 0x00000000#32))

/-! ## The three host stretches between the calls, each read from any contents `X` it starts from -/

section Stretches
variable (X : Valuation τ sig (Elt F))

theorem first_row : StableHlo.after hostOps1 X (Proc.devRef .tc main_v7) = rowK (X (Proc.devRef .tc main_arg1)) := by
  after_results <;> rfl
theorem first_col : StableHlo.after hostOps1 X (Proc.devRef .tc main_v10) = colK (X (Proc.devRef .tc main_arg1)) := by
  after_results <;> rfl
theorem first_pos : StableHlo.after hostOps1 X (Proc.devRef .tc main_v16)
    = cmpf (F := F) .ogt (degK (colK (X (Proc.devRef .tc main_arg1)))) (broadcastInDim S100000 ![] bcast_S_S100000 (constant S_ .f32 0x00000000#32)) := by
  after_results <;> rfl
theorem first_rsqrt : StableHlo.after hostOps1 X (Proc.devRef .tc main_v17) = Host.rsqrt (degK (colK (X (Proc.devRef .tc main_arg1)))) := by
  after_results <;> rfl
theorem first_zero : StableHlo.after hostOps1 X (Proc.devRef .tc main_cst_2) = constant S_ .f32 0x00000000#32 := by
  after_results <;> rfl
theorem first_keeps_h : StableHlo.after hostOps1 X (Proc.devRef .tc main_v3) = X (Proc.devRef .tc main_v3) := by
  after_results <;> rfl

theorem second_dinv : StableHlo.after hostOps1_1 X (Proc.devRef .tc main_v18)
    = dinvK (X (Proc.devRef .tc main_v16)) (X (Proc.devRef .tc main_v17)) (X (Proc.devRef .tc main_cst_2)) := by
  after_results <;> rfl
theorem second_keeps_row : StableHlo.after hostOps1_1 X (Proc.devRef .tc main_v7) = X (Proc.devRef .tc main_v7) := by
  after_results <;> rfl
theorem second_keeps_col : StableHlo.after hostOps1_1 X (Proc.devRef .tc main_v10) = X (Proc.devRef .tc main_v10) := by
  after_results <;> rfl
theorem second_keeps_h : StableHlo.after hostOps1_1 X (Proc.devRef .tc main_v3) = X (Proc.devRef .tc main_v3) := by
  after_results <;> rfl

theorem third_pass : StableHlo.after hostOps1_2 X (Proc.devRef .tc main_v46)
    = passK (X (Proc.devRef .tc main_v3)) (X (Proc.devRef .tc main_v7)) (X (Proc.devRef .tc main_v10)) (X (Proc.devRef .tc main_v18)) := by
  after_results_simp <;> rfl
theorem third_keeps_bias : StableHlo.after hostOps1_2 X (Proc.devRef .tc main_arg4) = X (Proc.devRef .tc main_arg4) := by
  after_results_simp <;> rfl
theorem second_keeps_bias : StableHlo.after hostOps1_1 X (Proc.devRef .tc main_arg4) = X (Proc.devRef .tc main_arg4) := by
  after_results <;> rfl
theorem first_keeps_bias : StableHlo.after hostOps1 X (Proc.devRef .tc main_arg4) = X (Proc.devRef .tc main_arg4) := by
  after_results <;> rfl
theorem first_keeps_edges : StableHlo.after hostOps1 X (Proc.devRef .tc main_arg1) = X (Proc.devRef .tc main_arg1) := by
  after_results <;> rfl

theorem zeroth_weights : StableHlo.after hostOps0 X (Proc.devRef .tc main_v2)
    = Host.dotGeneral dot_S256x128_S128x128_S256x128_1_0_0_1_n_n none
        (transpose S256x128 [1, 0] (X (Proc.devRef .tc main_arg2)) transposes_S128x256_S256x128_1_0)
        (transpose S128x128 [1, 0] (X (Proc.devRef .tc main_arg3)) transposes_S128x128_S128x128_1_0) := by
  after_results <;> rfl
theorem zeroth_keeps_x : StableHlo.after hostOps0 X (Proc.devRef .tc main_arg0) = X (Proc.devRef .tc main_arg0) := by
  after_results <;> rfl
theorem zeroth_keeps_edges : StableHlo.after hostOps0 X (Proc.devRef .tc main_arg1) = X (Proc.devRef .tc main_arg1) := by
  after_results <;> rfl
theorem zeroth_keeps_bias : StableHlo.after hostOps0 X (Proc.devRef .tc main_arg4) = X (Proc.devRef .tc main_arg4) := by
  after_results <;> rfl

end Stretches

/-! ## What each call finds -/

variable (m : (ℓ : Loc nD τ sig) → Buf (Elt F) ℓ) (ρ : Dev nD → PrngReg)

/-- The projection call finds `x` as launched -/
theorem proj_finds_x (c : Dev nD) : V1 m ρ c main_arg0 = m ((c : Thread nD τ).loc main_arg0) :=
  zeroth_keeps_x (W0 m ρ c)
/-- and the product of the two transposed weights. -/
theorem proj_finds_w (c : Dev nD) : V1 m ρ c main_v2
    = Host.dotGeneral dot_S256x128_S128x128_S256x128_1_0_0_1_n_n none
        (transpose S256x128 [1, 0] (m ((c : Thread nD τ).loc main_arg2)) transposes_S128x256_S256x128_1_0)
        (transpose S128x128 [1, 0] (m ((c : Thread nD τ).loc main_arg3)) transposes_S128x128_S128x128_1_0) :=
  zeroth_weights (W0 m ρ c)

/-- The closing call finds the bias as launched -/
theorem norm_finds_bias (c : Dev nD) : V5 m ρ c main_arg4 = m ((c : Thread nD τ).loc main_arg4) := by
  show StableHlo.after hostOps1_2 (StableHlo.after hostOps1_1 (StableHlo.after hostOps1 (W2 m ρ c))) (Proc.devRef .tc main_arg4) = _
  rw [third_keeps_bias, second_keeps_bias, first_keeps_bias, W2_of_ne m ρ c main_arg4 (by decide)]
  exact zeroth_keeps_bias (W0 m ρ c)

/-- and the message passing over what the projection call's write-backs left, along the launched edge list. -/
theorem norm_finds_agg (c : Dev nD) : V5 m ρ c main_v46
    = glueK ((dat0 (V1 m ρ) c).arrAt 2 cfg0.N) (m ((c : Thread nD τ).loc main_arg1)) := by
  show StableHlo.after hostOps1_2 (StableHlo.after hostOps1_1 (StableHlo.after hostOps1 (W2 m ρ c))) (Proc.devRef .tc main_v46) = _
  rw [third_pass, second_dinv, second_keeps_row, second_keeps_col, second_keeps_h,
    first_row, first_col, first_pos, first_rsqrt, first_zero, first_keeps_h,
    W2_of_ne m ρ c main_arg1 (by decide), W2_arr m ρ c 2]
  rw [show W1 m ρ c (Proc.devRef .tc main_arg1) = m ((c : Thread nD τ).loc main_arg1) from zeroth_keeps_edges (W0 m ρ c)]
  rfl

end Cert.KernelIdeal.HostSide

end
-- ==== Proof.RefValue.lean ====
/-
  The reference's result, read as the three functions of the specification: its two host products are
  `Cert.Spec.twoProducts`, its closing operations `Cert.Spec.normalizeRows`, and between them the message-passing
  stretch, carried as ONE function `glueR` of the projected array and the edge list and never opened.
-/
import proofs.«117587_j45122926412247_1_alg».proof.Proof.RefRead
import proofs.«117587_j45122926412247_1_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.TcCoe
open Idealize.SL.Sem Idealize.ShloMosaic.ValueIdx

/-- The message-passing stretch as one function of the projected array `h` and the edge list: gather `h` at the
    sources, scale by the symmetric degree normalisation, scatter-add at the targets. -/
def glueR {F : FTy → Type} [FloatOps F] (h : (⟨S100000x128, .f32⟩ : BufTy).Contents (Elt F))
    (ei : (⟨S2x1600000, .i32⟩ : BufTy).Contents (Elt F)) : (⟨S100000x128, .f32⟩ : BufTy).Contents (Elt F) :=
  Host.scatterAdd scatter_S100000x128_S1700000x1_S1700000x128_1_0_0_1 (val_main_v44 (F := F)) (val_main_v45 (F := F) ei)
    (mulf (Host.gather gather_S100000x128_S1700000x1_S1700000x128_1_0_n_n_0_1_1128 h (val_main_v39 (F := F) ei))
      (val_main_v42 (F := F) ei))

/-! ### The two products -/

/-- The reference's two host products are the specification's `twoProducts`: entry (n, j) is
    `∑ l, (∑ k, x n k · wp l k) · wg j l`, the transposes only renaming the coordinates of the two weights. -/
theorem products_eq (x0 : (⟨S100000x256, .f32⟩ : BufTy).Contents (Elt Ideal))
    (x2 : (⟨S128x256, .f32⟩ : BufTy).Contents (Elt Ideal)) (x3 : (⟨S128x128, .f32⟩ : BufTy).Contents (Elt Ideal)) :
    val_main_v3 (F := Ideal) x0 x2 x3 = Cert.Spec.twoProducts x0 x2 x3 := by
  funext i
  rw [val_main_v3_apply]
  unfold Cert.Spec.twoProducts
  refine Finset.sum_congr rfl fun l _ => ?_
  rw [val_main_v1_apply, val_main_v2_apply]
  have e3 : idx_main_v2 (ridx_main_v3 i l) = ix2 (Cert.Spec.feat i) l :=
    funext fun a => Fin.ext (by match a with | ⟨0, _⟩ => rfl | ⟨1, _⟩ => rfl)
  rw [e3]
  refine congrArg (· * x3 (ix2 (Cert.Spec.feat i) l)) ?_
  refine Finset.sum_congr rfl fun k _ => ?_
  rw [val_main_v0_apply]
  have e0 : lidx_main_v1 (lidx_main_v3 i l) k = ix2 (Cert.Spec.node i) k :=
    funext fun a => Fin.ext (by match a with | ⟨0, _⟩ => rfl | ⟨1, _⟩ => rfl)
  have e2 : idx_main_v0 (ridx_main_v1 (lidx_main_v3 i l) k) = ix2 l k :=
    funext fun a => Fin.ext (by match a with | ⟨0, _⟩ => rfl | ⟨1, _⟩ => rfl)
  rw [e0, e2]

/-! ### The message-passing stretch -/

/-- The aggregated array is `glueR` of the projected array and the edge list. -/
theorem aggregate_eq {F : FTy → Type} [FloatOps F] (x0 : (⟨S100000x256, .f32⟩ : BufTy).Contents (Elt F))
    (x1 : (⟨S2x1600000, .i32⟩ : BufTy).Contents (Elt F)) (x2 : (⟨S128x256, .f32⟩ : BufTy).Contents (Elt F))
    (x3 : (⟨S128x128, .f32⟩ : BufTy).Contents (Elt F)) :
    val_main_v46 (F := F) x0 x1 x2 x3 = glueR (F := F) (val_main_v3 (F := F) x0 x2 x3) x1 := by
  unfold val_main_v46 val_main_v43 val_main_v40 glueR
  rfl

/-! ### The closing operations, as functions of the aggregated array -/

section Closing

variable {F : FTy → Type} [FloatOps F]

/-- The aggregated array plus the bias, broadcast along the rows. -/
def biased (agg : (⟨S100000x128, .f32⟩ : BufTy).Contents (Elt F)) (x4 : (⟨S128, .f32⟩ : BufTy).Contents (Elt F)) :
    (⟨S100000x128, .f32⟩ : BufTy).Contents (Elt F) :=
  addf agg (val_main_v48 (F := F) x4)

/-- The sum of squares of each biased row. -/
def sumSq (agg : (⟨S100000x128, .f32⟩ : BufTy).Contents (Elt F)) (x4 : (⟨S128, .f32⟩ : BufTy).Contents (Elt F)) :
    (⟨S100000, .f32⟩ : BufTy).Contents (Elt F) :=
  Host.reduceAdd (mulf (biased agg x4) (biased agg x4)) (val_main_cst_9 (F := F)) reducesTo_S100000x128_S100000_d1 h_S_

/-- The divisor of each row: the larger of the row's Euclidean norm and the fixed positive word. -/
def rowDen (agg : (⟨S100000x128, .f32⟩ : BufTy).Contents (Elt F)) (x4 : (⟨S128, .f32⟩ : BufTy).Contents (Elt F)) :
    (⟨S100000x1, .f32⟩ : BufTy).Contents (Elt F) :=
  maximumf (Host.sqrt (broadcastInDim S100000x1 ![0] bcast_S100000_S100000x1_0 (sumSq agg x4))) (val_main_v54 (F := F))

/-- The closing operations: the biased rows, each divided by its divisor. -/
def closing (agg : (⟨S100000x128, .f32⟩ : BufTy).Contents (Elt F)) (x4 : (⟨S128, .f32⟩ : BufTy).Contents (Elt F)) :
    (⟨S100000x128, .f32⟩ : BufTy).Contents (Elt F) :=
  Host.divf (biased agg x4) (broadcastInDim S100000x128 ![0, 1] bcast_S100000x1_S100000x128_0_1 (rowDen agg x4))

/-- The reference's last stage is the closing operations applied to the aggregated array. -/
theorem result_eq_closing (x0 : (⟨S100000x256, .f32⟩ : BufTy).Contents (Elt F))
    (x1 : (⟨S2x1600000, .i32⟩ : BufTy).Contents (Elt F)) (x2 : (⟨S128x256, .f32⟩ : BufTy).Contents (Elt F))
    (x3 : (⟨S128x128, .f32⟩ : BufTy).Contents (Elt F)) (x4 : (⟨S128, .f32⟩ : BufTy).Contents (Elt F)) :
    val_main_v57 (F := F) x0 x1 x2 x3 x4 = closing (F := F) (val_main_v46 (F := F) x0 x1 x2 x3) x4 := by
  unfold val_main_v57 val_main_v56 val_main_v55 val_main_v53 val_main_v52 val_main_v51 val_main_v50 val_main_v49
    closing rowDen sumSq biased
  rfl

end Closing

/-- The bias at an index of the nodes × features array is the bias at the index's column. -/
theorem bias_apply (x4 : (⟨S128, .f32⟩ : BufTy).Contents (Elt Ideal)) (i : S100000x128.Idx) :
    val_main_v48 (F := Ideal) x4 i = x4 (ix1 (Cert.Spec.feat i)) := by
  rw [val_main_v48_apply, val_main_v47_apply]
  exact congrArg x4 (funext fun a => Fin.ext (by match a with | ⟨0, _⟩ => rfl))

/-- A biased entry. -/
theorem biased_apply (agg : (⟨S100000x128, .f32⟩ : BufTy).Contents (Elt Ideal))
    (x4 : (⟨S128, .f32⟩ : BufTy).Contents (Elt Ideal)) (i : S100000x128.Idx) :
    biased (F := Ideal) agg x4 i = agg i + x4 (ix1 (Cert.Spec.feat i)) := by
  unfold biased
  refine (ValueIdx.addf_apply (s := S100000x128) (φ := .f32) agg (val_main_v48 (F := Ideal) x4) i).trans ?_
  rw [bias_apply]

/-- The sum of squares of row `r`. -/
theorem sumSq_apply (agg : (⟨S100000x128, .f32⟩ : BufTy).Contents (Elt Ideal))
    (x4 : (⟨S128, .f32⟩ : BufTy).Contents (Elt Ideal)) (r : S100000.Idx) :
    sumSq (F := Ideal) agg x4 r
      = ∑ k : Fin 128, (agg (ix2 (⟨(r 0).val, (r 0).isLt⟩ : Fin 100000) k) + x4 (ix1 k))
          * (agg (ix2 (⟨(r 0).val, (r 0).isLt⟩ : Fin 100000) k) + x4 (ix1 k)) := by
  have h : Shape.Reduces S100000x128 [1] S100000 := by decide
  unfold sumSq
  simp only [Host.reduceAdd, Ideal.hostReduceAdd_def]
  rw [Ideal.hostReduceAdd_single reducesTo_S100000x128_S100000_d1 h]
  have hz : (val_main_cst_9 (F := Ideal)) (Shape.Idx.first h_S_) = 0 := by
    rw [val_main_cst_9_apply, Ideal.ofBits_def, Ideal.ofBits_zero_f32]
  rw [hz, zero_add]
  refine Finset.sum_congr rfl fun k _ => ?_
  have el : h.lift r k = ix2 (n0 := 100000) (n1 := 128) ⟨(r 0).val, (r 0).isLt⟩ ⟨k.val, k.isLt⟩ :=
    funext fun a => Fin.ext (by match a with | ⟨0, _⟩ => rfl | ⟨1, _⟩ => rfl)
  rw [el]
  refine (ValueIdx.mulf_apply (s := S100000x128) (φ := .f32) _ _ _).trans ?_
  rw [biased_apply]
  rfl

/-- The closing operations are the specification's `normalizeRows`. -/
theorem closing_eq (agg : (⟨S100000x128, .f32⟩ : BufTy).Contents (Elt Ideal))
    (x4 : (⟨S128, .f32⟩ : BufTy).Contents (Elt Ideal)) :
    closing (F := Ideal) agg x4 = Cert.Spec.normalizeRows agg x4 := by
  funext i
  have hb : broadcastInDim S100000x128 ![0, 1] bcast_S100000x1_S100000x128_0_1 (rowDen (F := Ideal) agg x4) i
      = rowDen (F := Ideal) agg x4 (idx_main_v56 i) := by
    generalize rowDen (F := Ideal) agg x4 = y
    exact broadcastInDim_apply _ bcast_S100000x1_S100000x128_0_1 y i (idx_main_v56 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])
  have hs : broadcastInDim S100000x1 ![0] bcast_S100000_S100000x1_0 (sumSq (F := Ideal) agg x4) (idx_main_v56 i)
      = sumSq (F := Ideal) agg x4 (idx_main_v52 (idx_main_v56 i)) := by
    generalize sumSq (F := Ideal) agg x4 = y
    generalize idx_main_v56 i = j
    exact broadcastInDim_apply _ bcast_S100000_S100000x1_0 y j (idx_main_v52 j) (fun a => match a with
      | ⟨0, _⟩ => by show (j 0).val = if (100000 : Nat) = 1 then 0 else (j 0).val; rw [if_neg (by decide)])
  have hd : rowDen (F := Ideal) agg x4 (idx_main_v56 i)
      = max (Ideal.sqrt (sumSq (F := Ideal) agg x4 (idx_main_v52 (idx_main_v56 i)))) (Ideal.ofBits .f32 0x2B8CBCCC#32) := by
    unfold rowDen
    refine (ValueIdx.maximumf_apply (s := S100000x1) (φ := .f32) _ _ _).trans ?_
    rw [val_main_v54_apply, val_main_cst_10_apply, Ideal.ofBits_def]
    refine congrArg (max · (Ideal.ofBits .f32 0x2B8CBCCC#32)) ?_
    show FloatOps.hostUnary (F := Ideal) (φ := .f32) .sqrt
      (broadcastInDim S100000x1 ![0] bcast_S100000_S100000x1_0 (sumSq (F := Ideal) agg x4) (idx_main_v56 i)) = _
    rw [Ideal.hostUnary_sqrt_def, hs]
  unfold closing
  show FloatOps.hostDivf (F := Ideal) (φ := .f32) (biased (F := Ideal) agg x4 i)
      (broadcastInDim S100000x128 ![0, 1] bcast_S100000x1_S100000x128_0_1 (rowDen (F := Ideal) agg x4) i) = _
  rw [Ideal.hostDivf_def, hb, hd, sumSq_apply, biased_apply]
  rfl

/-- The reference's result is the normalised rows of the message passing over the two-step projection. -/
theorem ref_result (m : (ℓ : Loc nD τ sig) → Buf (Elt Ideal) ℓ) (c : Dev nD) :
    Cert.ReferenceIdeal.ValueP.res_main_v57 (F := Ideal) m c
      = Cert.Spec.normalizeRows
          (glueR (F := Ideal)
            (Cert.Spec.twoProducts (m ((c.tc : Thread nD τ).loc main_arg0)) (m ((c.tc : Thread nD τ).loc main_arg2))
              (m ((c.tc : Thread nD τ).loc main_arg3)))
            (m ((c.tc : Thread nD τ).loc main_arg1)))
          (m ((c.tc : Thread nD τ).loc main_arg4)) := by
  rw [val_main_v57_eq, result_eq_closing, closing_eq, aggregate_eq, products_eq]

end Cert.ReferenceIdeal.RefValue

end
-- ==== Proof.Bridge.lean ====
/-
  The message-passing stretch is the same function in the two programs: the kernel's program and the reference apply the
  same host operations, in the same order and with the same literals, to the projected array and the edge list. The two
  spellings unfold to one term.
-/
import proofs.«117587_j45122926412247_1_alg».proof.Proof.KHost
import proofs.«117587_j45122926412247_1_alg».proof.Proof.RefValue

set_option maxRecDepth 16384

noncomputable section

namespace Cert.Bridge

open Idealize.ShloMosaic

variable {F : FTy → Type} [FloatOps F]

/-- The reference's stretch between the projection and the closing operations is the kernel's. -/
theorem glue_eq (h : (⟨Cert.KernelIdeal.S100000x128, .f32⟩ : BufTy).Contents (Elt F))
    (ei : (⟨Cert.KernelIdeal.S2x1600000, .i32⟩ : BufTy).Contents (Elt F)) :
    Cert.ReferenceIdeal.RefValue.glueR (F := F) h ei = Cert.KernelIdeal.HostSide.glueK (F := F) h ei := by
  unfold Cert.ReferenceIdeal.RefValue.glueR Cert.KernelIdeal.HostSide.glueK Cert.KernelIdeal.HostSide.passK
    Cert.KernelIdeal.HostSide.dinvK Cert.KernelIdeal.HostSide.degK Cert.KernelIdeal.HostSide.rowK Cert.KernelIdeal.HostSide.colK
  rfl

end Cert.Bridge

end
-- ==== Proof.Algebra.lean ====
/-
  The one law that joins the two projections: with every entry a real number,
  `∑ k, x n k · (∑ l, wp l k · wg j l) = ∑ l, (∑ k, x n k · wp l k) · wg j l`
  — distribute, exchange the two finite sums, collect. On the extended reals the distribution needs the entries real.
-/
import proofs.«117587_j45122926412247_1_alg».proof.Proof.Spec

noncomputable section

open scoped BigOperators

namespace Cert.Spec

open Idealize.ShloMosaic Idealize.ShloMosaic.ValueIdx

/-- The inclusion of the reals in the extended reals carries a finite sum to the sum of the images: it carries
    `0` to `0` and `a + b` to `a + b`, and a finite sum is built from these one term at a time. -/
private theorem coe_finsum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- `x · (Wpᵀ · Wgᵀ) = (x · Wpᵀ) · Wgᵀ`, entry by entry, when every entry of the three arrays is a real number. -/
theorem projection_assoc (x : SX.Idx → EReal) (wp : SWp.Idx → EReal) (wg : SWg.Idx → EReal)
    (hx : AllReal x) (hwp : AllReal wp) (hwg : AllReal wg) :
    rowsTimes x (weightProduct wp wg) = twoProducts x wp wg := by
  -- Name the real number behind every entry.
  choose fx hfx using hx
  choose fp hfp using hwp
  choose fg hfg using hwg
  funext i
  -- Entry (n, j) of both sides, with the product matrix read at (k, j): its row index is `k` itself.
  show (∑ k : Fin 256, x (ix2 (node i) k) * (∑ l : Fin 128, wp (ix2 l k) * wg (ix2 (feat i) l)))
      = ∑ l : Fin 128, (∑ k : Fin 256, x (ix2 (node i) k) * wp (ix2 l k)) * wg (ix2 (feat i) l)
  -- Both sides are images of real numbers: products and finite sums of reals stay real.
  simp only [hfx, hfp, hfg, ← EReal.coe_mul, ← coe_finsum]
  -- In the reals: distribute on both sides, exchange the order of summation, and compare term by term.
  refine congrArg _ ?_
  simp only [Finset.mul_sum, Finset.sum_mul]
  rw [Finset.sum_comm]
  refine Finset.sum_congr rfl fun l _ => Finset.sum_congr rfl fun k _ => ?_
  ring

end Cert.Spec

end
-- ==== Proof.Finite.lean ====
/-
  What the precondition gives: the three arrays the projection multiplies hold real numbers only. The precondition is
  the conjunction, array by array, of "every |entry| is below +∞"; an extended real whose absolute value is below +∞ is
  neither infinity.
-/
import proofs.«117587_j45122926412247_1_alg».proof.Pre_finite_inputs
import proofs.«117587_j45122926412247_1_alg».proof.Proof.Gen.Pre_finite_inputs
import proofs.«117587_j45122926412247_1_alg».proof.Proof.Spec
import Idealize.ShloMosaic.Lib.ReduceAll

noncomputable section

namespace Cert.Pre_finite_inputs.Real

open Idealize.ShloMosaic Idealize.ShloMosaic.ValueIdx Cert.Pre_finite_inputs

variable [Cert.Pre_finite_inputs.Facts]

/-- The scalar shape has exactly one index: there is no axis to give a coordinate on. -/
private instance : Subsingleton S_.Idx := ⟨fun a b => funext fun d => d.elim0⟩

/-- The f32 pattern with sign clear, exponent field all ones and fraction zero denotes `+∞`. -/
private theorem inf_pattern : Ideal.ofBits .f32 0x7F800000#32 = ⊤ := by simp [Ideal.ofBits, Ideal.ieee]

/-- An extended real whose absolute value `max a (-a)` is below `+∞` is a real number: at `⊤` the maximum is `⊤`
    itself, at `⊥` it is `-⊥ = ⊤`, and neither is below `⊤`. -/
private theorem real_of_abs_lt_inf (a : EReal)
    (h : Ideal.cmp .olt (max a (-a)) (Ideal.ofBits .f32 0x7F800000#32) = 1#1) : ∃ r : ℝ, a = (r : EReal) := by
  rw [inf_pattern] at h
  induction a using EReal.rec with
  | bot => exact absurd h (by simp [Ideal.cmp])
  | coe r => exact ⟨r, rfl⟩
  | top => exact absurd h (by simp [Ideal.cmp])

/-- One conjunct of the precondition, for an array of any shape: if the conjunction over all indices of
    "`|entry| < +∞`" is 1, every entry is a real number. The conjunction being 1 gives the comparison at each index;
    read there, the comparison is of `max (a i) (-(a i))` with the value of the `+∞` pattern. -/
private theorem allReal_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ix0 = 1#1) : Cert.Spec.AllReal a := fun i =>
  real_of_abs_lt_inf (a i) (Host.reduce_andi_all _ _ hr hu ix0 e i)

/-- Under the precondition every entry of `x`, `Wp` and `Wg` is a real number. -/
theorem allReal_of_pre (x : FVec Ideal S100000x256 .f32) (ei : IVec S2x1600000 32) (wp : FVec Ideal S128x256 .f32)
    (wg : FVec Ideal S128x128 .f32) (bg : FVec Ideal S128 .f32)
    (h : Cert.Pre_finite_inputs.fn (F := Ideal) x ei wp wg bg = fun _ => 1#1) :
    Cert.Spec.AllReal x ∧ Cert.Spec.AllReal wp ∧ Cert.Spec.AllReal wg := by
  -- The precondition at its one index: a conjunction, nested to the left, of the four arrays' conjuncts.
  have h0 := congrFun h ix0
  dsimp only [fn, fn_part1, andi] at h0
  simp only [IntOp.andi_eq_one] at h0
  obtain ⟨⟨⟨hX, hP⟩, hG⟩, -⟩ := h0
  exact ⟨allReal_of_all x _ _ _ hX, allReal_of_all wp _ _ _ hP, allReal_of_all wg _ _ _ hG⟩

end Cert.Pre_finite_inputs.Real

end
-- ==== Proof.lean ====
/-
  The certificate. The kernel's program projects `x` by ONE matrix, the product `Wpᵀ · Wgᵀ` the host forms first, in a
  Pallas call of 20 row blocks; runs the graph message passing on the host (self-loops, symmetric degree normalisation,
  gather at the sources, scatter-add at the targets); and closes with a second Pallas call of 20 row blocks that adds the
  bias and divides each row by the larger of its Euclidean norm and a fixed positive word. The reference projects by
  `Wpᵀ` and then by `Wgᵀ`, runs the same message passing, and closes with the same operations on the whole array.

  At the ideal instance the two results are equal: the closing operations are the same function of the aggregated array
  and the bias, row by row (`Cert.Spec.normalizeRows`); the message passing is the same function of the projected array
  and the edge list, carried unopened (`Cert.Bridge.glue_eq`); and the two projections agree because a matrix product is
  associative where every entry is a real number (`Cert.Spec.projection_assoc`), which is where the precondition — every
  float input finite — is used. The frames are the generated ones; the kernel's result is read off the run of its two
  regions with the result buffer kept in the post.
-/
import proofs.«117587_j45122926412247_1_alg».proof.Defs
import proofs.«117587_j45122926412247_1_alg».proof.Proof.Gen.Kernel.Frame
import proofs.«117587_j45122926412247_1_alg».proof.Proof.Gen.KernelIdeal.Frame
import proofs.«117587_j45122926412247_1_alg».proof.Proof.Gen.ReferenceIdeal
import proofs.«117587_j45122926412247_1_alg».proof.Proof.Gen.Pre_finite_inputs
import proofs.«117587_j45122926412247_1_alg».proof.Proof.KRun
import proofs.«117587_j45122926412247_1_alg».proof.Proof.KProj
import proofs.«117587_j45122926412247_1_alg».proof.Proof.KNorm
import proofs.«117587_j45122926412247_1_alg».proof.Proof.KHost
import proofs.«117587_j45122926412247_1_alg».proof.Proof.RefValue
import proofs.«117587_j45122926412247_1_alg».proof.Proof.Bridge
import proofs.«117587_j45122926412247_1_alg».proof.Proof.Algebra
import proofs.«117587_j45122926412247_1_alg».proof.Proof.Finite

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The common value of the two results on device `c`, as a function of the kernel program's launched arguments. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v47) :=
  Cert.Spec.normalizeRows
    (Cert.KernelIdeal.HostSide.glueK (F := Ideal)
      (Cert.Spec.twoProducts (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg1)))
    (m ((c.tc : Thread Cert.KernelIdeal.nD Cert.KernelIdeal.τ).loc Cert.KernelIdeal.main_arg4))

/-- The kernel's result array ends at `result`: the closing call normalises what the message passing makes of the
    projection call's output, and that output is `x · (Wpᵀ · Wgᵀ)`, which is `(x · Wpᵀ) · Wgᵀ` on real entries. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hx : Cert.Spec.AllReal (m ((c.tc : Thread Cert.KernelIdeal.nD Cert.KernelIdeal.τ).loc Cert.KernelIdeal.main_arg0))) (hwp : Cert.Spec.AllReal (m ((c.tc : Thread Cert.KernelIdeal.nD Cert.KernelIdeal.τ).loc Cert.KernelIdeal.main_arg2)))
    (hwg : Cert.Spec.AllReal (m ((c.tc : Thread Cert.KernelIdeal.nD Cert.KernelIdeal.τ).loc Cert.KernelIdeal.main_arg3))) :
    (Cert.KernelIdeal.Gen.dat1 (Cert.KernelIdeal.Gen.V5 m ρ) c).arrAt 2 Cert.KernelIdeal.cfg1.N = result m c := by
  rw [Cert.KernelIdeal.Norm.norm_final (Cert.KernelIdeal.Gen.V5 m ρ) c, Cert.KernelIdeal.HostSide.norm_finds_agg m ρ c,
    Cert.KernelIdeal.HostSide.norm_finds_bias m ρ c, Cert.KernelIdeal.Proj.proj_final (Cert.KernelIdeal.Gen.V1 m ρ) c,
    Cert.KernelIdeal.HostSide.proj_finds_x m ρ c, Cert.KernelIdeal.HostSide.proj_finds_w m ρ c,
    Cert.KernelIdeal.Proj.weightProduct_eq, Cert.Spec.projection_assoc _ _ _ hx hwp hwg]
  rfl

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨result m, ?_, ?_⟩
  · refine (θ_run Cert.KernelIdeal.defs _ _).mono (fun r h c => ⟨(h c).1.trans ?_, (h c).2⟩)
      (Cert.KernelIdeal.Run.run_result (F := Ideal) m ρ)
    obtain ⟨hx, hwp, hwg⟩ := Cert.Pre_finite_inputs.Real.allReal_of_pre _ _ _ _ _ (hpre c)
    exact kernel_value m ρ c hx hwp hwg
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.ref_result m' c, (hagree c).1, (hagree c).2.1, (hagree c).2.2.1, (hagree c).2.2.2.1,
      (hagree c).2.2.2.2, Cert.Bridge.glue_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
